-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S32768x512 : Shape := ⟨2, ![32768, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x512 .f32) (main_arg1 : IVec S1024 32) (main_arg2 : FVec F S32768x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S32768x512 .f32 := Host.absf main_arg2
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg1 main_v9
  let main_c_3 : IVec S_ 32 := constantI S_ 32 32768#32
  let main_v11 : IVec S1024 32 := broadcastInDim S1024 ![] bcast_S_S1024 main_c_3
  let main_v12 : IVec S1024 1 := cmpi .slt main_arg1 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Kernel.lean ====
abbrev S1024x512 : Shape := ⟨2, ![1024, 512]⟩
abbrev S1024 : Shape := ⟨1, ![1024]⟩
abbrev S32768x512 : Shape := ⟨2, ![32768, 512]⟩
abbrev S1024x4x128 : Shape := ⟨3, ![1024, 4, 128]⟩
abbrev S32768x4x128 : Shape := ⟨3, ![32768, 4, 128]⟩
abbrev S1x1 : Shape := ⟨2, ![1, 1]⟩
abbrev S1x4x128 : Shape := ⟨3, ![1, 4, 128]⟩
abbrev S1 : Shape := ⟨1, ![1]⟩
abbrev S1x128 : Shape := ⟨2, ![1, 128]⟩
abbrev S128x1 : Shape := ⟨2, ![128, 1]⟩
abbrev S_ : Shape := ⟨0, ![]⟩

abbrev nBuf : Space → Nat
  | .hbm => 6
  | .vmem => 5
  | .smem => 1
  | _ => 0

abbrev bufTy : (tb : Table) → Fin (tcTables nBuf tb) → BufTy
  | .hbm, ⟨0, _⟩ => ⟨S1024x512, .f32⟩
  | .hbm, ⟨1, _⟩ => ⟨S32768x512, .f32⟩
  | .hbm, ⟨2, _⟩ => ⟨S1024x4x128, .f32⟩
  | .hbm, ⟨3, _⟩ => ⟨S32768x4x128, .f32⟩
  | .hbm, ⟨4, _⟩ => ⟨S1x1, .f32⟩
  | .hbm, ⟨5, _⟩ => ⟨S_, .f32⟩
  | .local _ .vmem, ⟨0, _⟩ => ⟨S1x4x128, .f32⟩
  | .local _ .vmem, ⟨1, _⟩ => ⟨S1x4x128, .f32⟩
  | .local _ .vmem, ⟨2, _⟩ => ⟨S1x4x128, .f32⟩
  | .local _ .vmem, ⟨3, _⟩ => ⟨S1x4x128, .f32⟩
  | .local _ .vmem, ⟨4, _⟩ => ⟨S1x1, .f32⟩
  | .local _ .smem, ⟨0, _⟩ => ⟨S1024, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![1024], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S1024.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1024) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1024x512_S1024x4x128 : S1024x512.ShapeCasts S1024x4x128
  shapeCasts_S32768x512_S32768x4x128 : S32768x512.ShapeCasts S32768x4x128
  numel1_S1 : S1.numel = 1
  inb_S1x1_S1x1_0_0 : ∀ a, (![0, 0] : Fin 2 → Nat) a + S1x1.size a ≤ S1x1.size a
  h_S1x1 : 0 < S1x1.numel
  inb_S1x4x128_S1x4x128_0_0_0 : ∀ a, (![0, 0, 0] : Fin 3 → Nat) a + S1x4x128.size a ≤ S1x4x128.size a
  h_S1x4x128 : 0 < S1x4x128.numel
  shapeCasts_S1x4x128_S1x4x128 : S1x4x128.ShapeCasts S1x4x128
  reduces_S1x4x128_S1x128 : S1x4x128.Reduces [1] S1x128
  shapeCasts_S1x1_S1x1 : S1x1.ShapeCasts S1x1
  shapeCasts_S1x1_S_ : S1x1.ShapeCasts S_
  dot_S1x128_S128x1_S1x1_1_0_0_1_n_n_wf : DotDims.WF S1x128 S128x1 S1x1 [1] [0] [0] [1] [] []
  hrank0 : 0 < grid0.rank
  k0_off1_inb : ∀ i : grid0.Coords, ∀ a, (k0_off1 i) a + S1.size a ≤ S1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x128.size a ≤ S1024x4x128.size a
  hwx0_0 : ∀ i : grid0.Coords, EltTy.bits .f32 = 32 ∨ (Rect.block (s := S1024x4x128) S1x4x128.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

abbrev spec0_0 : Pipeline.WinSpec sig grid0.rank :=
  Pipeline.WinSpec.ofSpec (Memref.whole main_v0) S1x4x128.size reads0_0 false false 2 stage0_0 sem0_0 nbuf0_0 hstage0_0

abbrev spec0_1 : Pipeline.WinSpec sig grid0.rank :=
  Pipeline.WinSpec.ofSpec (Memref.whole main_v1) S1x4x128.size reads0_1 false false 2 stage0_1 sem0_1 nbuf0_1 hstage0_1

abbrev spec0_2 : Pipeline.WinSpec sig grid0.rank :=
  Pipeline.WinSpec.ofSpec (Memref.whole main_v2) S1x1.size reads0_2 true true 1 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x4x128.size a ≤ S32768x4x128.size a), EltTy.bits .f32 = 32 ∨ (Rect.block (s := S32768x4x128) S1x4x128.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S1024x512 : Shape := ⟨2, ![1024, 512]⟩
abbrev S1024 : Shape := ⟨1, ![1024]⟩
abbrev S32768x512 : Shape := ⟨2, ![32768, 512]⟩
abbrev S_ : Shape := ⟨0, ![]⟩
abbrev S1024x1 : Shape := ⟨2, ![1024, 1]⟩

abbrev nBuf : Space → Nat
  | .hbm => 23
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S32768x512, .f32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  reducesTo_S1024x512_S1024_d1 : S1024x512.ReducesTo [1] S1024
  h_S_ : 0 < S_.numel
  reducesTo_S1024_S_d0 : S1024.ReducesTo [0] S_
  gather_S32768x512_S1024x1_S1024x512_1_0_n_n_0_1_1512_wf : GatherDims.WF S32768x512 S1024x1 S1024x512 [1] [0] [] [0] [] 1 ![1, 512]

variable [Facts₀]

def gather_S32768x512_S1024x1_S1024x512_1_0_n_n_0_1_1512 : GatherDims S32768x512 S1024x1 S1024x512 where
  offsetDims := [1]
  collapsedSliceDims := [0]
  operandBatchingDims := []
  startIndicesBatchingDims := []
  startIndexMap := [0]
  indexVectorDim := 1
  sliceSizes := ![1, 512]
  wf := gather_S32768x512_S1024x1_S1024x512_1_0_n_n_0_1_1512_wf

class Facts : Prop extends Facts₀ where

variable [Facts]
-- ==== Proof.PreRead.lean ====
/-
  The precondition read back.

  The stated precondition is a conjunction of three universally quantified facts, each printed as a
  reduction by `and` of a pointwise test:
    * every entry of the sample matrix `x` has absolute value below +∞,
    * every entry of the table of centers has absolute value below +∞,
    * every label `ℓ` satisfies `0 ≤ ℓ` and `ℓ < 32768` as a signed word.
  From the first two, every entry of `x` and of the centers is a real number (not ±∞); from the third,
  every label, read as an unsigned word, is below 32768 — the number of rows of the table.
-/
import proofs.«414845_j7928509628847_4_alg».proof.Pre_finite_inputs
import Idealize.ShloMosaic.Lib.ReduceAll
import Idealize.ShloMosaic.PureOps.Ideal
import Idealize.ShloMosaic.PureOps.Ideal.Laws

noncomputable section

namespace Cert.PreRead

open Idealize.ShloMosaic Cert.Pre_finite_inputs

variable [Facts]
open Facts

instance : Subsingleton S_.Idx := ⟨fun a b => funext fun d => d.elim0⟩

/-- The one index of a rank-0 array. -/
def i0 : S_.Idx := fun d => d.elim0

/-- A signed word in `[0, 32768)` is, unsigned, below 32768. -/
theorem toNat_lt_of_signed_range (w : BitVec 32) (h0 : IntOp.cmpi .sge w 0#32 = 1#1)
    (h1 : IntOp.cmpi .slt w 32768#32 = 1#1) : w.toNat < 32768 := by
  rw [IntOp.cmpi_sge] at h0
  rw [IntOp.cmpi_slt] at h1
  have e0 : (0#32 : BitVec 32).toInt = 0 := by decide
  have e1 : (32768#32 : BitVec 32).toInt = 32768 := by decide
  rw [e0] at h0
  rw [e1] at h1
  have hw := w.isLt
  rw [BitVec.toInt_eq_toNat_cond] at h0 h1
  split at h1 <;> omega

section AnyF
variable {F : FTy → Type} [FloatOps F]

/-- The third conjunct: every label is below 32768 as an unsigned word. -/
theorem label_lt (x : FVec F S1024x512 .f32) (l : IVec S1024 32) (c : FVec F S32768x512 .f32)
    (h : fn x l c = fun _ => 1#1) (i : S1024.Idx) : (l i).toNat < 32768 := by
  have e := congrFun h i0
  dsimp only [fn] at e
  have e3 := (IntOp.andi_eq_one.1 e).2
  have e4 := Host.reduce_andi_all _ _ reducesTo_S1024_S_d0 h_S_ i0 e3 i
  have e5 := IntOp.andi_eq_one.1 e4
  exact toNat_lt_of_signed_range (l i) e5.1 e5.2

end AnyF

/-- An extended real whose absolute value is below the word of +∞ is a real number. -/
theorem real_of_abs_lt (a : EReal)
    (h : FloatOps.cmpf (F := Ideal) (φ := .f32) .olt (FloatOps.hostAbsf (F := Ideal) (φ := .f32) a) (FloatOps.ofBits (F := Ideal) .f32 0x7F800000#32) = 1#1) :
    ∃ r : ℝ, a = (r : EReal) := by
  have htop : Ideal.ofBits .f32 0x7F800000#32 = ⊤ := by simp [Ideal.ofBits, Ideal.ieee]
  rw [Ideal.cmpf_def, Ideal.hostAbsf_def, Ideal.absf_def, Ideal.ofBits_def, htop] at h
  simp only [Ideal.cmp] at h
  have hlt : max a (-a) < ⊤ := by
    by_contra hn
    rw [decide_eq_false hn] at h
    exact absurd h (by decide)
  induction a using EReal.rec with
  | bot => exact absurd hlt (by simp)
  | top => exact absurd hlt (by simp)
  | coe r => exact ⟨r, rfl⟩

/-- The first conjunct: every entry of `x` is real. -/
theorem x_real (x : FVec Ideal S1024x512 .f32) (l : IVec S1024 32) (c : FVec Ideal S32768x512 .f32)
    (h : fn x l c = fun _ => 1#1) (i : S1024x512.Idx) : ∃ r : ℝ, x i = (r : EReal) := by
  have e := congrFun h i0
  dsimp only [fn] at e
  have e1 := (IntOp.andi_eq_one.1 (IntOp.andi_eq_one.1 e).1).1
  exact real_of_abs_lt (x i) (Host.reduce_andi_all _ _ reducesTo_S1024x512_S_d0_1 h_S_ i0 e1 i)

/-- The second conjunct: every entry of the centers is real. -/
theorem c_real (x : FVec Ideal S1024x512 .f32) (l : IVec S1024 32) (c : FVec Ideal S32768x512 .f32)
    (h : fn x l c = fun _ => 1#1) (i : S32768x512.Idx) : ∃ r : ℝ, c i = (r : EReal) := by
  have e := congrFun h i0
  dsimp only [fn] at e
  have e1 := (IntOp.andi_eq_one.1 (IntOp.andi_eq_one.1 e).1).2
  exact real_of_abs_lt (c i) (Host.reduce_andi_all _ _ reducesTo_S32768x512_S_d0_1 h_S_ i0 e1 i)

end Cert.PreRead

end
-- ==== Proof.OkBits.lean ====
/-
  The gathered block lies inside the table.

  At grid point `i` the second input window fetches the block of the reshaped table of centers whose row
  index is the `i`-th label, read as an unsigned word. The table has 32768 rows, and each block is one whole
  row (all 4 × 128 entries), so the block lies inside the table exactly when that word is below 32768 —
  which the precondition states of every label.
-/
import proofs.«414845_j7928509628847_4_alg».proof.Defs
import proofs.«414845_j7928509628847_4_alg».proof.Proof.Gen.Kernel.Frame
import proofs.«414845_j7928509628847_4_alg».proof.Proof.Gen.Pre_finite_inputs
import proofs.«414845_j7928509628847_4_alg».proof.Proof.PreRead

noncomputable section

namespace Cert.Kernel.OkOfPre

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The table of labels the region reads is the label argument as launched. -/
theorem tbl_eq : tbl m 0 = m (((0 : Dev nD) : Thread nD τ).loc main_arg1) := V_main_arg1 m 0

/-- If every label is below 32768 (unsigned), every label-indexed block lies inside the table of centers. -/
theorem ok_of_labels (h : ∀ j, (m (((0 : Dev nD) : Thread nD τ).loc main_arg1) j).toNat < 32768) : Ok m := by
  intro i
  refine ⟨fun a => ?_, Or.inl rfl⟩
  match a with
  | ⟨0, _⟩ =>
    show ((tbl m 0 _).toNat + 1) * 1 ≤ 32768
    rw [tbl_eq]
    have key : ∀ w : BitVec 32, w.toNat < 32768 → (w.toNat + 1) * 1 ≤ 32768 := fun w hw => by omega
    exact key _ (h _)
  | ⟨1, _⟩ => show (0 + 1) * 4 ≤ 4; omega
  | ⟨2, _⟩ => show (0 + 1) * 128 ≤ 128; omega

end Cert.Kernel.OkOfPre

end
-- ==== Proof.OkIdeal.lean ====
/-
  The gathered block lies inside the table.

  At grid point `i` the second input window fetches the block of the reshaped table of centers whose row
  index is the `i`-th label, read as an unsigned word. The table has 32768 rows, and each block is one whole
  row (all 4 × 128 entries), so the block lies inside the table exactly when that word is below 32768 —
  which the precondition states of every label.
-/
import proofs.«414845_j7928509628847_4_alg».proof.Defs
import proofs.«414845_j7928509628847_4_alg».proof.Proof.Gen.KernelIdeal.Frame
import proofs.«414845_j7928509628847_4_alg».proof.Proof.Gen.Pre_finite_inputs
import proofs.«414845_j7928509628847_4_alg».proof.Proof.PreRead

noncomputable section

namespace Cert.KernelIdeal.OkOfPre

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The table of labels the region reads is the label argument as launched. -/
theorem tbl_eq : tbl m 0 = m (((0 : Dev nD) : Thread nD τ).loc main_arg1) := V_main_arg1 m 0

/-- If every label is below 32768 (unsigned), every label-indexed block lies inside the table of centers. -/
theorem ok_of_labels (h : ∀ j, (m (((0 : Dev nD) : Thread nD τ).loc main_arg1) j).toNat < 32768) : Ok m := by
  intro i
  refine ⟨fun a => ?_, Or.inl rfl⟩
  match a with
  | ⟨0, _⟩ =>
    show ((tbl m 0 _).toNat + 1) * 1 ≤ 32768
    rw [tbl_eq]
    have key : ∀ w : BitVec 32, w.toNat < 32768 → (w.toNat + 1) * 1 ≤ 32768 := fun w hw => by omega
    exact key _ (h _)
  | ⟨1, _⟩ => show (0 + 1) * 4 ≤ 4; omega
  | ⟨2, _⟩ => show (0 + 1) * 128 ≤ 128; omega

end Cert.KernelIdeal.OkOfPre

end
-- ==== Proof.Algebra.lean ====
/-
  The arithmetic that joins the two programs, over the real numbers.

  Write `D i d = x i d - c (ℓ i) d` for the difference between sample `i` and the center its label selects,
  at feature `d` (1024 samples, 512 features). The reference computes the mean over the samples of half
  the squared length of `D i`:
      (0 + ∑ i, 1/2 · (0 + ∑ d, D i d · D i d)) / 1024.
  The kernel walks the samples in order, keeping a running total that starts at `0` and to which sample `i`
  adds `1/2048` times its squared length, the squared length itself summed first over the four rows of
  128 features and then over the 128 columns (each column total multiplied by `1`):
      (((0 + t 0) + t 1) + …) + t 1023,   t i = 1/2048 · ∑ k, (∑ s, D i (128 s + k) · D i (128 s + k)) · 1.
  Over the reals the two are equal: `1/2048 = 1/2 · 1/1024`, a sum over 512 features is the double sum over
  4 × 128 of them in either order, and a running total is the sum of its terms. Every quantity involved
  is a real number (the inputs are), so the same holds of the extended reals the programs compute with.
-/
import Idealize.ShloMosaic.PureOps.Ideal
import Idealize.ShloMosaic.PureOps.Ideal.Laws
import Mathlib.Algebra.BigOperators.Fin
import Mathlib.Algebra.BigOperators.Ring.Finset
import Mathlib.Data.EReal.Operations

noncomputable section

open scoped BigOperators

namespace Cert.HalfSqDist

open Idealize.ShloMosaic

/-! ## The five literals -/

theorem lit_one : Ideal.ofBits .f32 0x3F800000#32 = ((1 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_2048th : Ideal.ofBits .f32 0x3A000000#32 = ((1 / 2048 : ℝ) : EReal) := by
  simp [Ideal.ofBits, Ideal.ieee, -EReal.coe_mul]; norm_num

/-! ## Finite sums of reals inside the extended reals -/

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-! ## A running total is the sum of its terms -/

/-- The running total after term `n` of `N` terms: it starts from `0` and adds the terms in order. -/
def runTotal (N : ℕ) (f : Fin N → EReal) : (n : ℕ) → n < N → EReal
  | 0, h => 0 + f ⟨0, h⟩
  | n + 1, h => runTotal N f n (Nat.lt_of_succ_lt h) + f ⟨n + 1, h⟩

/-- A term list extended by zeros beyond its length. -/
def padded (N : ℕ) (a : Fin N → ℝ) (i : ℕ) : ℝ := if h : i < N then a ⟨i, h⟩ else 0

theorem runTotal_coe (N : ℕ) (a : Fin N → ℝ) : ∀ (n : ℕ) (h : n < N),
    runTotal N (fun i => (a i : EReal)) n h = ((∑ i ∈ Finset.range (n + 1), padded N a i : ℝ) : EReal)
  | 0, h => by
    rw [runTotal, Finset.sum_range_one, padded, dif_pos h, zero_add]
  | n + 1, h => by
    rw [runTotal, runTotal_coe N a n, Finset.sum_range_succ _ (n + 1), EReal.coe_add]
    congr 2
    rw [padded, dif_pos h]

/-- The last running total is the sum of all the terms. -/
theorem runTotal_last (N : ℕ) (a : Fin (N + 1) → ℝ) :
    runTotal (N + 1) (fun i => (a i : EReal)) N (Nat.lt_succ_self N) = ((∑ i, a i : ℝ) : EReal) := by
  rw [runTotal_coe, Finset.sum_range]
  congr 1
  exact Finset.sum_congr rfl fun i _ => by rw [padded, dif_pos i.isLt]

/-! ## One sample's squared length, two ways -/

/-- Feature `128 s + k`: column `k` of row `s` when 512 features are laid out as 4 rows of 128. -/
def feat (s : Fin 4) (k : Fin 128) : Fin 512 := ⟨128 * s.val + k.val, by have := s.isLt; have := k.isLt; omega⟩

/-- Summing over the 512 features is summing over the 128 columns the totals of the 4 rows. -/
theorem sum_feat (g : Fin 512 → ℝ) : ∑ k : Fin 128, (∑ s : Fin 4, g (feat s k)) * 1 = ∑ d : Fin 512, g d := by
  simp only [mul_one]
  rw [Finset.sum_comm]
  have h := Equiv.sum_comp (finProdFinEquiv : Fin 4 × Fin 128 ≃ Fin (4 * 128)) (fun d : Fin (4 * 128) => g d)
  rw [Fintype.sum_prod_type] at h
  refine Eq.trans (Finset.sum_congr rfl fun s _ => Finset.sum_congr rfl fun k _ => ?_) h
  congr 1
  apply Fin.ext
  simp [feat, finProdFinEquiv]
  omega

/-- The term sample `i` adds to the kernel's running total, as a real number. -/
def kterm (D : Fin 512 → ℝ) : ℝ := 1 / 2048 * ∑ k : Fin 128, (∑ s : Fin 4, D (feat s k) * D (feat s k)) * 1

/-- The mean of half the squared lengths. -/
def meanHalfSq (D : Fin 1024 → Fin 512 → ℝ) : ℝ := (0 + ∑ i : Fin 1024, 1 / 2 * (0 + ∑ d : Fin 512, D i d * D i d)) * (1 / 1024)

/-- The kernel's total is the reference's mean. -/
theorem sum_kterm (D : Fin 1024 → Fin 512 → ℝ) : ∑ i : Fin 1024, kterm (D i) = meanHalfSq D := by
  unfold kterm meanHalfSq
  rw [zero_add, Finset.sum_mul]
  refine Finset.sum_congr rfl fun i _ => ?_
  rw [sum_feat (fun d => D i d * D i d), zero_add]
  ring

end Cert.HalfSqDist

end
-- ==== Proof.KernelPieces.lean ====
/-
  What one grid step leaves in the one-element output block.

  The body loads the sample row `x` and the gathered center row `c` (each 4 × 128), and adds to the running
  total `o` held in the 1 × 1 output block the quantity `2⁻¹¹ · ∑ₖ (∑ₛ (x − c)²)·1`. At the first grid point
  it first overwrites the block with zero and reads that zero back, so the total starts from `0`; at every
  other point it reads what the point before left.
-/
import proofs.«414845_j7928509628847_4_alg».proof.Defs
import proofs.«414845_j7928509628847_4_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.ValueIdx

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a point other than the first the body leaves, in the output block holding `xo`, the update of `xo` by
    the two input rows. -/
theorem out_B (c : Dev nD) (i : grid0.Coords) (a2 : Memref sig .tc .vmem S1x4x128 .f32) (h2 : a2.IsWhole)
    (a3 : Memref sig .tc .vmem S1x4x128 .f32) (h3 : a3.IsWhole) (a4 : Memref sig .tc .vmem S1x1 .f32) (h4 : a4.IsWhole)
    (hc : ¬cond0_0 i) (x0 x1 : Vec F S1x4x128 .f32) (xt0 : TbBuf0 (F := F) c tbM0_0) (xo2 : Vec F S1x1 .f32) :
    out0_B_2 c i a2 h2 a3 h3 a4 h4 hc x0 x1 xt0 xo2 = k0_pay2 x0 x1 xo2 := by
  unfold out0_B_2
  rw [View.read_writes_eq_canon _ _ _ (cover0_B_2 c i a2 h2 a3 h3 a4 h4 hc x0 x1 xt0 xo2)]
  unfold kernelRun0_B
  dsimp only
  sl_unfold_words
  rw [View.canon_unit_zero hz2]
  simp only [View.readAt_eq_ld, h2.read_unread, h3.read_unread, h4.read_unread, View.ld_unit_zero (S := S1x4x128) hz3,
    View.ld_unit_zero (S := S1x1) hz2]

/-- The zero block the first point stores before it accumulates. -/
abbrev zeroBlock : Vec F S1x1 .f32 := broadcast S1x1 (Scalar.ofBits .f32 0x00000000#32)

/-- At the first point the body stores the zero block, reads it back, and leaves the update of zero by the two
    input rows. -/
theorem out_A (c : Dev nD) (i : grid0.Coords) (a2 : Memref sig .tc .vmem S1x4x128 .f32) (h2 : a2.IsWhole)
    (a3 : Memref sig .tc .vmem S1x4x128 .f32) (h3 : a3.IsWhole) (a4 : Memref sig .tc .vmem S1x1 .f32) (h4 : a4.IsWhole)
    (hc : cond0_0 i) (x0 x1 : Vec F S1x4x128 .f32) (xt0 : TbBuf0 (F := F) c tbM0_0) :
    out0_A_2 c i a2 h2 a3 h3 a4 h4 hc x0 x1 xt0 = k0_pay2 x0 x1 zeroBlock := by
  unfold out0_A_2
  rw [View.read_writes_eq_canon _ _ _ (cover0_A_2 c i a2 h2 a3 h3 a4 h4 hc x0 x1 xt0)]
  unfold kernelRun0_A
  dsimp only
  sl_unfold_words
  rw [View.canon_cons_unit_zero (S := S1x1) hz2]
  simp only [View.readAt_eq_ld, h2.read_unread, h3.read_unread, View.ld_unit_zero (S := S1x4x128) hz3,
    View.readCov_unit_zero (S := S1x1) _ hz2]
  rfl

end Cert.KernelIdeal.Pieces

end
-- ==== Proof.KernelPay.lean ====
/-
  One grid step's update, read as a number.

  With exact arithmetic the update of the running total `o` by the sample row `x` and the center row `c`
  (each laid out as 4 rows of 128) is
      o + 2⁻¹¹ · ∑ₖ (∑ₛ (x ₛₖ − c ₛₖ)·(x ₛₖ − c ₛₖ)) · 1 :
  the reduction over the row axis gives the 128 column totals, and the product with the all-ones column
  vector sums them, each multiplied by `1`.
-/
import proofs.«414845_j7928509628847_4_alg».proof.Defs
import proofs.«414845_j7928509628847_4_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Pay

open Cert.KernelIdeal Cert.KernelIdeal.Gen

/-- The contraction of the lane-collapsing product: a 1 × 128 row against a 128 × 1 column. -/
abbrev lanes := dot_S1x128_S128x1_S1x1_1_0_0_1_n_n

/-- A column total: the reduction over the row axis, read at column `k`, is the sum over the four rows. -/
theorem colTotal (v : FVec Ideal S1x4x128 .f32) (hφ : FKind.Formats .f32)
    (hacc : (0x00000000#32 : BitVec 32) = FKind.add.neutral .f32 hφ) (j : S1x128.Idx) (k : Fin 128) (hj : (j 1).val = k.val) :
    multiReduction .add [1] S1x128 v 0x00000000#32 reduces_S1x4x128_S1x128 hφ hacc j
      = ∑ s : Fin 4, v (ix3 (0 : Fin 1) s k) := by
  refine (Ideal.multiReduction_add_single v _ reduces_S1x4x128_S1x128 hφ hacc j).trans ?_
  show ∑ s : Fin 4, v (reduces_S1x4x128_S1x128.lift j s) = ∑ s : Fin 4, v (ix3 (0 : Fin 1) s k)
  refine Finset.sum_congr rfl fun s _ => congrArg v (funext fun a => Fin.ext ?_)
  match a with
  | ⟨0, _⟩ => exact Nat.lt_one_iff.1 (reduces_S1x4x128_S1x128.lift j s 0).isLt
  | ⟨1, _⟩ => rfl
  | ⟨2, _⟩ => exact hj

/-- What a step adds to the running total, from the sample row `v3` and the center row `v5`. -/
def rowTerm (v3 v5 : FVec Ideal S1x4x128 .f32) : EReal :=
  Ideal.ofBits .f32 0x3A000000#32
    * ∑ k : Fin 128, (∑ s : Fin 4, (v3 (ix3 (0 : Fin 1) s k) - v5 (ix3 (0 : Fin 1) s k)) * (v3 (ix3 (0 : Fin 1) s k) - v5 (ix3 (0 : Fin 1) s k)))
        * Ideal.ofBits .f32 0x3F800000#32

theorem pay2_apply (v3 v5 : FVec Ideal S1x4x128 .f32) (v12 : FVec Ideal S1x1 .f32) (j : S1x1.Idx) :
    k0_pay2 (F := Ideal) v3 v5 v12 j = v12 j + rowTerm v3 v5 := by
  unfold k0_pay2 rowTerm
  simp only [addf_apply, mulf_apply, broadcast_apply, shapeCast_self, matmul]
  refine congrArg (fun z => v12 j + Ideal.ofBits .f32 0x3A000000#32 * z) ?_
  refine (Ideal.matmul_constant_zero_apply lanes _ _ _ j).trans ?_
  refine Eq.trans ?_ (Equiv.sum_comp (contrEquiv1 lanes 128 rfl rfl)
    (fun k : Fin 128 => (∑ s : Fin 4, (v3 (ix3 (0 : Fin 1) s k) - v5 (ix3 (0 : Fin 1) s k)) * (v3 (ix3 (0 : Fin 1) s k) - v5 (ix3 (0 : Fin 1) s k)))
      * Ideal.ofBits .f32 0x3F800000#32))
  refine Finset.sum_congr rfl fun q _ => ?_
  refine congrArg (· * Ideal.ofBits .f32 0x3F800000#32) ?_
  exact colTotal _ _ _ _ (contrEquiv1 lanes 128 rfl rfl q) (lanes.lhsIdx_val_of_single rfl j q)

end Cert.KernelIdeal.Pay

end
-- ==== Proof.KernelBlocks.lean ====
/-
  What the two input windows hold at a grid point.

  Before the grid runs, the sample matrix (1024 × 512) and the table of centers (32768 × 512) are each
  re-laid as rows of 4 × 128: entry `(r, s, k)` of the re-laid array is entry `(r, 128 s + k)` of the original.
  At grid point `t` the first window holds row `t` of the re-laid samples, and the second holds the row of the
  re-laid table whose number is the `t`-th label (read as an unsigned word).
-/
import proofs.«414845_j7928509628847_4_alg».proof.Defs
import proofs.«414845_j7928509628847_4_alg».proof.Proof.Gen.KernelIdeal.Frame
import Idealize.ShloMosaic.Lib.Pipeline.Value
import Idealize.ShloMosaic.Lib.ValueIdx
import Idealize.ShloMosaic.Lib.StableHlo.Run
import proofs.«414845_j7928509628847_4_alg».proof.Proof.Algebra

noncomputable section

open Idealize.ShloMosaic Idealize.ShloMosaic.TcCoe Idealize.SL.Sem
open Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

open Cert.HalfSqDist (feat)

/-- The sample matrix and the table of centers as launched, and the label table. -/
abbrev xs (c : Dev nD) : Vec F S1024x512 .f32 := m ((c : Thread nD τ).loc main_arg0)
abbrev cs (c : Dev nD) : Vec F S32768x512 .f32 := m ((c : Thread nD τ).loc main_arg2)

/-- The re-laid sample matrix, as the grid finds it. -/
theorem V_samples (c : Dev nD) :
    (V m c main_v0 : S1024x4x128.Idx → Elt F .f32) = shapeCast S1024x4x128 (xs m c) shapeCasts_S1024x512_S1024x4x128 := by
  show StableHlo.after hostOps0 (fun b => m (c, b)) (Proc.devRef .tc main_v0) = _
  after_results
  rfl

/-- The re-laid table of centers, as the grid finds it. -/
theorem V_centers (c : Dev nD) :
    (V m c main_v1 : S32768x4x128.Idx → Elt F .f32) = shapeCast S32768x4x128 (cs m c) shapeCasts_S32768x512_S32768x4x128 := by
  show StableHlo.after hostOps0 (fun b => m (c, b)) (Proc.devRef .tc main_v1) = _
  after_results
  rfl

/-- Entry `(r, s, k)` of the re-laid samples is entry `(r, 128 s + k)` of the samples. -/
theorem samples_apply (c : Dev nD) (r : Fin 1024) (s : Fin 4) (k : Fin 128) :
    (V m c main_v0 : S1024x4x128.Idx → Elt F .f32) (ix3 r s k) = xs m c (ix2 r (feat s k)) := by
  rw [V_samples]
  refine shapeCast_apply _ _ _ _ ?_
  rw [Shape.rowMajor_val_two, Shape.rowMajor_val_three]
  show r.val * 512 + (128 * s.val + k.val) = (r.val * 4 + s.val) * 128 + k.val
  omega

/-- Entry `(r, s, k)` of the re-laid table is entry `(r, 128 s + k)` of the table. -/
theorem centers_apply (c : Dev nD) (r : Fin 32768) (s : Fin 4) (k : Fin 128) :
    (V m c main_v1 : S32768x4x128.Idx → Elt F .f32) (ix3 r s k) = cs m c (ix2 r (feat s k)) := by
  rw [V_centers]
  refine shapeCast_apply _ _ _ _ ?_
  rw [Shape.rowMajor_val_two, Shape.rowMajor_val_three]
  show r.val * 512 + (128 * s.val + k.val) = (r.val * 4 + s.val) * 128 + k.val
  omega

variable (hO : Ok m)

/-- The first window's block index at point `t` is `(t, 0, 0)`. -/
theorem xindex : ∀ t : Fin grid0.N, cc0_transform_0 (grid0.coords t) 0 = t.val ∧ cc0_transform_0 (grid0.coords t) 1 = 0
    ∧ cc0_transform_0 (grid0.coords t) 2 = 0 :=
  (by decide +kernel : ∀ t : Fin grid0.N, cc0_transform_0 (grid0.coords t) 0 = t.val ∧ cc0_transform_0 (grid0.coords t) 1 = 0
    ∧ cc0_transform_0 (grid0.coords t) 2 = 0)

set_option backward.isDefEq.respectTransparency.types false in
/-- The first window at point `t` holds row `t` of the samples. -/
theorem xblk_apply (c : Dev nD) (t : Fin (cfgM m hO).N) (ht : t.val < 1024) (s : Fin 4) (k : Fin 128) :
    (iblk m hO c 0 t : Vec F S1x4x128 .f32) (ix3 (0 : Fin 1) s k) = xs m c (ix2 (⟨t.val, ht⟩ : Fin 1024) (feat s k)) := by
  unfold iblk
  rw [View.read_apply]
  show V m c main_v0 _ = _
  rw [← samples_apply m c ⟨t.val, ht⟩ s k]
  refine congrArg (V m c main_v0 : S1024x4x128.Idx → Elt F .f32) (funext fun a => Fin.ext ?_)
  have hx := xindex t
  match a with
  | ⟨0, _⟩ =>
    show cc0_transform_0 (grid0.coords t) 0 * 1 + 1 * 0 = t.val
    rw [hx.1]; omega
  | ⟨1, _⟩ =>
    show cc0_transform_0 (grid0.coords t) 1 * 4 + 1 * s.val = s.val
    rw [hx.2.1]; omega
  | ⟨2, _⟩ =>
    show cc0_transform_0 (grid0.coords t) 2 * 128 + 1 * k.val = k.val
    rw [hx.2.2]; omega

/-- The label of sample `t`, as launched. -/
abbrev lab (t : Fin 1024) : BitVec 32 := m (((0 : Dev nD) : Thread nD τ).loc main_arg1) (ix1 t)

/-- Grid point `t` has coordinate `t`, also after the round trip through a 32-bit word. -/
theorem coord_word : ∀ t : Fin grid0.N, (Scalar.indexCast (BitVec.ofNat 32 (grid0.coords t 0).val)).toNat = t.val :=
  (by decide +kernel : ∀ t : Fin grid0.N, (Scalar.indexCast (BitVec.ofNat 32 (grid0.coords t 0).val)).toNat = t.val)

/-- The second window's block index at point `t` is `(ℓ t, 0, 0)`, the label read as an unsigned word. -/
theorem cindex (t : Fin grid0.N) (ht : t.val < 1024) :
    cc0_transform_1 k0_off1_inb numel1_S1 (tbl m) (grid0.coords t) 0 = (lab m ⟨t.val, ht⟩).toNat := by
  show ((tbl m) 0 _).toNat = _
  rw [show tbl m 0 = m (((0 : Dev nD) : Thread nD τ).loc main_arg1) from V_main_arg1 m 0]
  refine congrArg BitVec.toNat (congrArg (m (((0 : Dev nD) : Thread nD τ).loc main_arg1)) (funext fun a => Fin.ext ?_))
  match a with
  | ⟨0, _⟩ =>
    have key : ∀ (off v : ℕ), off = t.val → v < 1 → off + 1 * v = t.val := fun off v h1 h2 => by omega
    exact key _ _ (coord_word t) (Fin.isLt _)

set_option backward.isDefEq.respectTransparency.types false in
/-- The second window at point `t` holds row `ℓ t` of the table of centers. -/
theorem cblk_apply (c : Dev nD) (t : Fin (cfgM m hO).N) (ht : t.val < 1024) (hl : (lab m ⟨t.val, ht⟩).toNat < 32768)
    (s : Fin 4) (k : Fin 128) :
    (iblk m hO c 1 t : Vec F S1x4x128 .f32) (ix3 (0 : Fin 1) s k)
      = cs m c (ix2 (⟨(lab m ⟨t.val, ht⟩).toNat, hl⟩ : Fin 32768) (feat s k)) := by
  unfold iblk
  rw [View.read_apply]
  show V m c main_v1 _ = _
  rw [← centers_apply m c ⟨(lab m ⟨t.val, ht⟩).toNat, hl⟩ s k]
  refine congrArg (V m c main_v1 : S32768x4x128.Idx → Elt F .f32) (funext fun a => Fin.ext ?_)
  match a with
  | ⟨0, _⟩ =>
    show cc0_transform_1 k0_off1_inb numel1_S1 (tbl m) (grid0.coords t) 0 * 1 + 1 * 0 = (lab m ⟨t.val, ht⟩).toNat
    rw [cindex m t ht]; omega
  | ⟨1, _⟩ =>
    show 0 * 4 + 1 * s.val = s.val
    omega
  | ⟨2, _⟩ =>
    show 0 * 128 + 1 * k.val = k.val
    omega

end Cert.KernelIdeal.Blocks

end
-- ==== Proof.KernelTotal.lean ====
/-
  The kernel's result: the running total after the last sample.

  The one-element output block never moves, so what it holds after grid point `n` is the update, by the
  rows of point `n`, of what it held after point `n − 1` — and at point `0`, of zero. By induction on the
  point, after point `n` it holds the running total of the first `n + 1` terms
      tᵢ = 2⁻¹¹ · ∑ₖ (∑ₛ (x i (128 s + k) − c (ℓ i) (128 s + k))²) · 1.
  The block is written back once, after the last point, and the program's result is that single number.
-/
import proofs.«414845_j7928509628847_4_alg».proof.Defs
import proofs.«414845_j7928509628847_4_alg».proof.Proof.Gen.KernelIdeal.Frame
import proofs.«414845_j7928509628847_4_alg».proof.Proof.Algebra
import proofs.«414845_j7928509628847_4_alg».proof.Proof.KernelPieces
import proofs.«414845_j7928509628847_4_alg».proof.Proof.KernelPay
import proofs.«414845_j7928509628847_4_alg».proof.Proof.KernelBlocks
import Idealize.ShloMosaic.Lib.Pipeline.Value
import Idealize.ShloMosaic.Lib.StableHlo.Run

noncomputable section

open scoped BigOperators
open Idealize.ShloMosaic Idealize.ShloMosaic.TcCoe Idealize.SL.Sem
open Idealize.ShloMosaic.Pipeline (Dat)
open Idealize.ShloMosaic.ValueIdx

namespace Cert.KernelIdeal.Total

open Cert.KernelIdeal Cert.KernelIdeal.Gen Cert.KernelIdeal.Pieces Cert.KernelIdeal.Blocks
open Cert.HalfSqDist (feat runTotal)

section AnyF

variable {F : FTy → Type} [FloatOps F]
variable (m : (ℓ : Loc nD τ sig) → Buf (Elt F) ℓ) (ρ : Dev nD → PrngReg) (hO : Ok m)

/-- What the output block holds after point `n`: the update of what it held before by the rows of point `n`. -/
def chain (c : Dev nD) : (n : ℕ) → n < (cfgM m hO).N → Vec F S1x1 .f32
  | 0, h => k0_pay2 (iblk m hO c 0 ⟨0, h⟩) (iblk m hO c 1 ⟨0, h⟩) zeroBlock
  | n + 1, h => k0_pay2 (iblk m hO c 0 ⟨n + 1, h⟩) (iblk m hO c 1 ⟨n + 1, h⟩) (chain c n (Nat.lt_of_succ_lt h))

set_option backward.isDefEq.respectTransparency.types false in
/-- The contents the grid's run assigns to the output block after point `n` are that chain of updates. -/
theorem outsAt_eq (c : Dev nD) : ∀ (n : ℕ) (h : n < (cfgM m hO).N), outsAt0 m hO c n h = chain m hO c n h
  | 0, h => (outsAt0_A m hO c ⟨0, h⟩ rfl).trans (out_A ..)
  | n + 1, h => by
    have hN : (cfgM m hO).N = 1024 := N_0
    have hB : ¬(⟨n + 1, h⟩ : Fin (cfgM m hO).N).val % 1024 = 0 := by dsimp only; omega
    rw [outsAt0_B m hO c ⟨n + 1, h⟩ hB, out_B]
    show k0_pay2 _ _ (outsAt0 m hO c n _) = k0_pay2 _ _ (chain m hO c n _)
    rw [outsAt_eq c n]

theorem lastLt : 1023 < (cfgM m hO).N := by rw [show (cfgM m hO).N = 1024 from N_0]; decide

/-- The block after the last point, as contents of the 1 × 1 result array (the block is the whole array). -/
abbrev result (c : Dev nD) : Buf (Elt F) ((c : Thread nD τ).loc main_v2) := chain m hO c 1023 (lastLt m hO)

set_option backward.isDefEq.respectTransparency.types false in
/-- The one write-back, after the last point, writes it. -/
theorem flushed_eq (c : Dev nD) (t : Fin (cfgM m hO).N) (hf : ((cfgM m hO).win 2).flush t = true) :
    (dats m hO 0 c).flushed 2 t = (((cfgM m hO).win 2).blk t).view.read (Elt F) (result m hO c) := by
  have hN : (cfgM m hO).N = 1024 := N_0
  have h3 : t.val = 1023 := by have := (flush0_2 (adm m hO) t).mp hf; have := t.isLt; omega
  obtain rfl : t = ⟨1023, lastLt m hO⟩ := Fin.ext h3
  show ((cfgM m hO).win 2).cut (grid0.coords _) ((dats m hO 0 c).after 2 _) = _
  rw [after0_2, outsAt_eq]
  have hz' : (fun a => ((cfgM m hO).win 2).index ⟨1023, lastLt m hO⟩ a * main_v2.ty.shape.size a) = fun _ => 0 :=
    funext fun a => by fin_cases a <;> rfl
  exact (Memref.read_access_unit_zero (Elt F) main_v2 hz' (fun a => by rw [congrFun hz' a]; simp) (result m hO c)).symm

set_option backward.isDefEq.respectTransparency.types false in
/-- So the 1 × 1 result array ends holding the block after the last point. -/
theorem final_o (c : Dev nD) : (dats m hO 0 c).arrAt 2 (cfgM m hO).N = result m hO c :=
  (dats m hO 0 c).arrAt_eq_of_cover 2 (result m hO c) (flushed_eq m hO c) fun (i : S1x1.Idx) =>
    ⟨⟨1023, lastLt m hO⟩, (flush0_2 (adm m hO) ⟨1023, lastLt m hO⟩).mpr rfl, by
      show i ∈ ((View.whole main_v2).slice (((cfgM m hO).win 2).rect ⟨1023, lastLt m hO⟩)).set
      rw [View.set_slice_whole]
      refine Rect.mem_set_unit.2 fun a => ?_
      have h0 : (i 0 : Nat) < 1 := (i 0).isLt
      have h1 : (i 1 : Nat) < 1 := (i 1).isLt
      match a with
      | ⟨0, _⟩ => show 0 * 1 ≤ (i 0 : Nat) ∧ (i 0 : Nat) < 0 * 1 + 1; omega
      | ⟨1, _⟩ => show 0 * 1 ≤ (i 1 : Nat) ∧ (i 1 : Nat) < 0 * 1 + 1; omega⟩

/-- After the grid the program re-lays the 1 × 1 array as a single number: the result. -/
theorem tail_eq (c : Dev nD) :
    Pipeline.afterTail pcfgs (fun _ => adm m hO) (dats m hO) 0 (V0 m) [hostOps1] c main_v3
      = shapeCast S_ (result m hO c) shapeCasts_S1x1_S_ := by
  unfold Pipeline.afterTail
  show StableHlo.after hostOps1 _ (Proc.devRef .tc main_v3) = _
  after_results
  have e := Pipeline.withArrays_arr (Val := Elt F) spec0 winFacts0.arr_inj c (V0 m c)
    (fun w => (dats m hO 0 c).arrAt w (cfgM m hO).N) 2
  show shapeCast S_ (Pipeline.withArrays spec0 c (V0 m c) (fun w => (dats m hO 0 c).arrAt w (cfgM m hO).N)
    (Proc.devRef .tc (Pipeline.arrRef spec0 2))) shapeCasts_S1x1_S_ = _
  rw [e, final_o]

/-- THE RUN, read: every execution ends with the result at the last block re-laid as a number, the arguments
    unchanged. -/
theorem run : θ_run defs (onTc (τ := τ) (main (F := F))) ⟨m, fun _ => 0, ρ⟩ fun r => ∀ c : Dev nD,
      r.2.mem ((c.tc : Thread nD τ).loc main_v3) = shapeCast S_ (result m hO c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (by decide : main_v3 ∈ Pipeline.restRefs sig spec0)).trans (tail_eq m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c)⟩)
    (run_main m ρ hO)

end AnyF

/-! ## At exact arithmetic: the last block is the running total of the 1024 terms -/

section AtIdeal

variable (m : (ℓ : Loc nD τ sig) → Buf (Elt Ideal) ℓ) (hO : Ok m)
variable (hL : ∀ t : Fin 1024, (lab m t).toNat < 32768)

/-- The term sample `t` adds: `2⁻¹¹ · ∑ₖ (∑ₛ (x t (128 s + k) − c (ℓ t) (128 s + k))²) · 1`. -/
def term (c : Dev nD) (t : Fin 1024) : EReal :=
  Ideal.ofBits .f32 0x3A000000#32
    * ∑ k : Fin 128, (∑ s : Fin 4,
        (xs m c (ix2 t (feat s k)) - cs m c (ix2 (⟨(lab m t).toNat, hL t⟩ : Fin 32768) (feat s k)))
          * (xs m c (ix2 t (feat s k)) - cs m c (ix2 (⟨(lab m t).toNat, hL t⟩ : Fin 32768) (feat s k))))
        * Ideal.ofBits .f32 0x3F800000#32

set_option backward.isDefEq.respectTransparency.types false in
/-- What point `t` adds, computed from its two blocks, is that term. -/
theorem rowTerm_eq (c : Dev nD) (t : Fin (cfgM m hO).N) (ht : t.val < 1024) :
    Pay.rowTerm (iblk m hO c 0 t) (iblk m hO c 1 t) = term m hL c ⟨t.val, ht⟩ := by
  unfold Pay.rowTerm term
  refine congrArg (Ideal.ofBits .f32 0x3A000000#32 * ·) (Finset.sum_congr rfl fun k _ =>
    congrArg (· * Ideal.ofBits .f32 0x3F800000#32) (Finset.sum_congr rfl fun s _ => ?_))
  rw [xblk_apply m hO c t ht s k, cblk_apply m hO c t ht (hL _) s k]

set_option backward.isDefEq.respectTransparency.types false in
/-- After point `n` the block holds the running total of the first `n + 1` terms. -/
theorem chain_apply (c : Dev nD) : ∀ (n : ℕ) (h : n < (cfgM m hO).N) (h' : n < 1024),
    chain m hO c n h (ix2 (0 : Fin 1) (0 : Fin 1)) = runTotal 1024 (term m hL c) n h'
  | 0, h, h' => by
    rw [chain, Pay.pay2_apply, runTotal, rowTerm_eq m hO hL c ⟨0, h⟩ h']
    refine congrArg (· + term m hL c ⟨0, h'⟩) ?_
    exact Ideal.ofBits_zero_f32
  | n + 1, h, h' => by
    rw [chain, Pay.pay2_apply, runTotal, rowTerm_eq m hO hL c ⟨n + 1, h⟩ h', chain_apply c n _ (Nat.lt_of_succ_lt h')]

/-- The program's result is the running total after the last sample. -/
theorem result_apply (c : Dev nD) (j : S_.Idx) :
    shapeCast S_ (result m hO c) shapeCasts_S1x1_S_ j = runTotal 1024 (term m hL c) 1023 (by decide) := by
  rw [shapeCast_apply (result m hO c) shapeCasts_S1x1_S_ j (ix2 (0 : Fin 1) (0 : Fin 1)) (by
    have e1 : (S1x1.rowMajor (ix2 (0 : Fin 1) (0 : Fin 1))).val = 0 := by rw [Shape.rowMajor_val_two]; rfl
    have e2 : (S_.rowMajor j).val = 0 := Nat.lt_one_iff.1 (S_.rowMajor j).isLt
    exact e1.trans e2.symm)]
  exact chain_apply m hO hL c 1023 _ _

end AtIdeal

end Cert.KernelIdeal.Total

end
-- ==== Proof.RefRead.lean ====
/-
  The reference read at an index.

  The reference gathers, for each sample `i`, the row of the table of centers named by the label `ℓ i`
  (a negative label is first shifted up by the table's height, and the row index is clamped into the
  table), subtracts it from the sample, squares, sums the 512 features from zero, halves, sums the 1024
  samples from zero and divides by 1024. When every label is in `[0, 32768)` neither the shift nor the clamp
  does anything, and the gathered row is row `ℓ i` itself.
-/
import proofs.«414845_j7928509628847_4_alg».proof.Defs
import proofs.«414845_j7928509628847_4_alg».proof.Proof.Gen.ReferenceIdeal.Run
import proofs.«414845_j7928509628847_4_alg».proof.Proof.Gen.ReferenceIdeal.Read
import Idealize.ShloMosaic.Lib.ValueIdx
import Idealize.ShloMosaic.Lib.Affine

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The gather's dimension numbers: one start index per sample, naming a row; the whole row is the slice. -/
abbrev G := gather_S32768x512_S1024x1_S1024x512_1_0_n_n_0_1_1512

/-- The gather at sample `i`, feature `d`: the table at the start index of sample `i` (read signed, clamped to
    the last row) and column `d`. -/
theorem gather_apply {α : Type} (x : S32768x512.Idx → α) (idx : IVec S1024x1 32) (i : Fin 1024) (d : Fin 512) :
    Host.gather G x idx (ix2 i d)
      = x (ix2 (⟨min (idx (ix2 i (0 : Fin 1))).toInt.toNat 32767, by omega⟩ : Fin 32768) d) := by
  unfold Host.gather
  congr 1
  funext a
  refine Fin.ext ?_
  match a with
  | ⟨0, _⟩ =>
    show G.start (ix2 i d) idx 0 + G.batchCoord (ix2 i d) 0 + G.offCoord (ix2 i d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx (ix2 i d) ⟨List.idxOf (0 : Fin 2) G.startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show G.start (ix2 i d) idx 1 + G.batchCoord (ix2 i d) 1 + G.offCoord (ix2 i d) 1 = d.val
    rw [GatherDims.batchCoord_eq_zero _ _ _ List.not_mem_nil]
    unfold GatherDims.start
    rw [dif_neg (show (1 : Fin 2) ∉ G.startIndexMap from by decide)]
    simp only [Nat.add_zero, Nat.zero_add]
    rfl

/-- A rank-1 index set is its coordinate's range, so a sum over it is the sum over the coordinate. -/
def idxEquiv1 {n : Nat} : (⟨1, ![n]⟩ : Shape).Idx ≃ Fin n where
  toFun j := j 0
  invFun := ix1
  left_inv j := (eq_ix1 j).symm
  right_inv _ := rfl

theorem sum_idx1 {n : Nat} (f : (⟨1, ![n]⟩ : Shape).Idx → EReal) : ∑ j, f j = ∑ i : Fin n, f (ix1 i) :=
  (Equiv.sum_comp (idxEquiv1 (n := n)).symm f).symm

variable (X : FVec Ideal S1024x512 .f32) (L : IVec S1024 32) (C : FVec Ideal S32768x512 .f32)

/-- A word below 32768 (unsigned) is that number when read signed. -/
theorem toInt_of_lt (w : BitVec 32) (h : w.toNat < 32768) : w.toInt = (w.toNat : Int) := by
  rw [BitVec.toInt_eq_toNat_cond, if_pos (by omega)]

/-- A label in range is not shifted: the start index of sample `i` is the label itself. -/
theorem start_index (hL : ∀ j, (L j).toNat < 32768) (i : Fin 1024) :
    val_main_v5 (F := Ideal) L (ix2 i (0 : Fin 1)) = L (ix1 i) := by
  have hidx : idx_main_v5 (ix2 i (0 : Fin 1)) = ix1 i := funext fun a => by match a with | ⟨0, _⟩ => rfl
  rw [val_main_v5_apply, hidx, val_main_v4_apply, val_main_v1_apply, val_main_v0_apply, val_main_c_apply]
  have hns : ¬ IntOp.cmpi .slt (L (ix1 i)) 0#32 = 1#1 := by
    rw [IntOp.cmpi_slt, toInt_of_lt _ (hL (ix1 i))]
    have e0 : (0#32 : BitVec 32).toInt = 0 := by decide
    rw [e0]; omega
  unfold Scalar.select
  exact if_neg hns

/-- The gathered row of sample `i` is row `ℓ i` of the table. -/
theorem gathered (hL : ∀ j, (L j).toNat < 32768) (i : Fin 1024) (d : Fin 512) :
    val_main_v6 (F := Ideal) L C (ix2 i d) = C (ix2 (⟨(L (ix1 i)).toNat, hL _⟩ : Fin 32768) d) := by
  unfold val_main_v6
  rw [gather_apply]
  refine congrArg C (funext fun a => Fin.ext ?_)
  match a with
  | ⟨0, _⟩ =>
    show min (val_main_v5 (F := Ideal) L (ix2 i (0 : Fin 1))).toInt.toNat 32767 = (L (ix1 i)).toNat
    rw [start_index L hL, toInt_of_lt _ (hL (ix1 i))]
    have := hL (ix1 i)
    omega
  | ⟨1, _⟩ => rfl

/-- The reference's result: the sum from zero over the samples of half the squared distance (summed from zero
    over the features) to the labelled center, divided by 1024. -/
theorem result_eq (hL : ∀ j, (L j).toNat < 32768) (j : S_.Idx) :
    val_main_v13 (F := Ideal) X L C j
      = Ideal.div (Ideal.ofBits .f32 0x00000000#32 + ∑ i : Fin 1024, Ideal.ofBits .f32 0x3F000000#32
          * (Ideal.ofBits .f32 0x00000000#32 + ∑ d : Fin 512,
              (X (ix2 i d) - C (ix2 (⟨(L (ix1 i)).toNat, hL _⟩ : Fin 32768) d))
                * (X (ix2 i d) - C (ix2 (⟨(L (ix1 i)).toNat, hL _⟩ : Fin 32768) d))))
          (Ideal.ofBits .f32 0x44800000#32) := by
  rw [val_main_v13_apply, val_main_v12_apply, val_main_cst_3_apply, val_main_cst_2_apply, sum_idx1]
  simp only [Ideal.hostDivf_def, Ideal.ofBits_def]
  refine congrArg (fun z => Ideal.div (Ideal.ofBits .f32 0x00000000#32 + z) (Ideal.ofBits .f32 0x44800000#32)) ?_
  refine Finset.sum_congr rfl fun i _ => ?_
  rw [val_main_v11_apply, val_main_v10_apply, val_main_cst_1_apply, val_main_v9_apply, val_main_cst_apply]
  simp only [Ideal.mulf_def, Ideal.ofBits_def]
  refine congrArg (fun z => Ideal.ofBits .f32 0x3F000000#32 * (Ideal.ofBits .f32 0x00000000#32 + z)) ?_
  refine Finset.sum_congr rfl fun d _ => ?_
  have hidx : idx_main_v9 (ix1 i) d = ix2 i d := funext fun a => by match a with | ⟨0, _⟩ => rfl | ⟨1, _⟩ => rfl
  rw [hidx, val_main_v8_apply, val_main_v7_apply, gathered L C hL]
  rfl

end Cert.ReferenceIdeal.RefValue

end
-- ==== Proof.Bridge.lean ====
/-
  From the extended reals to the reals and back.

  When the samples and the centers are real numbers, every intermediate quantity of both programs is a
  real number too, so each program's result is the image of a real expression — the kernel's the sum of its
  1024 terms, the reference's its mean — and the two real expressions are equal (the arithmetic module).
-/
import proofs.«414845_j7928509628847_4_alg».proof.Proof.Algebra

noncomputable section

open scoped BigOperators

namespace Cert.HalfSqDist

open Idealize.ShloMosaic

/-- One sample's term of the kernel's total, over real rows. -/
theorem kterm_coe (x c : Fin 512 → ℝ) :
    Ideal.ofBits .f32 0x3A000000#32
      * ∑ k : Fin 128, (∑ s : Fin 4, ((x (feat s k) : EReal) - (c (feat s k) : EReal)) * ((x (feat s k) : EReal) - (c (feat s k) : EReal)))
          * Ideal.ofBits .f32 0x3F800000#32
      = ((kterm (fun d => x d - c d) : ℝ) : EReal) := by
  rw [lit_2048th, lit_one]
  simp only [kterm, EReal.coe_mul, EReal.coe_sub, coe_sum]

/-- The reference's mean, over real rows. -/
theorem mean_coe (x c : Fin 1024 → Fin 512 → ℝ) :
    Ideal.div (Ideal.ofBits .f32 0x00000000#32 + ∑ i : Fin 1024, Ideal.ofBits .f32 0x3F000000#32
        * (Ideal.ofBits .f32 0x00000000#32 + ∑ d : Fin 512, ((x i d : EReal) - (c i d : EReal)) * ((x i d : EReal) - (c i d : EReal))))
      (Ideal.ofBits .f32 0x44800000#32)
      = ((meanHalfSq (fun i d => x i d - c i d) : ℝ) : EReal) := by
  rw [lit_half, lit_1024, Ideal.ofBits_zero_f32, Ideal.div_coe (by norm_num : (1024 : ℝ) ≠ 0)]
  simp only [meanHalfSq, EReal.coe_mul, EReal.coe_add, EReal.coe_sub, coe_sum, EReal.coe_zero]

/-- The kernel's running total after the last sample is the reference's mean. -/
theorem total_eq_mean (x c : Fin 1024 → Fin 512 → ℝ) :
    runTotal 1024 (fun i => ((kterm (fun d => x i d - c i d) : ℝ) : EReal)) 1023 (by decide)
      = ((meanHalfSq (fun i d => x i d - c i d) : ℝ) : EReal) := by
  rw [runTotal_last 1023 (fun i => kterm (fun d => x i d - c i d)), sum_kterm]

end Cert.HalfSqDist

end
-- ==== Proof.lean ====
/-
  Half the mean squared distance to the labelled center.

  Inputs: samples `x` (1024 × 512), labels `ℓ` (1024 words), centers `c` (32768 × 512). Both programs compute
      (1/1024) · ∑ᵢ ½ · ∑_d (x i d − c (ℓ i) d)².
  The reference gathers the 1024 labelled rows, squares the differences, sums over features, halves, and
  takes the mean. The kernel walks the samples one grid step at a time; step `i` fetches row `i` of `x` and
  row `ℓ i` of `c` (its block index is read from the label table), and adds `2⁻¹¹` times the squared
  distance to a one-element accumulator that is zeroed at the first step and written back after the last.

  The precondition says the float inputs are finite and every label is in `[0, 32768)`. The label range
  is what makes each gathered block lie inside the table (the frames of the kernel and of its idealization
  need exactly that), and under it the reference's index normalisation and clamp do nothing. Finiteness
  makes every intermediate value a real number, and over the reals the kernel's ordered total and the
  reference's mean are one number: `2⁻¹¹ = ½ · 1/1024`, and the 512 features are the 4 × 128 entries of a
  row in either summation order. The idealization rewrote nothing, so it preserves the kernel trivially.
-/
import proofs.«414845_j7928509628847_4_alg».proof.Defs
import proofs.«414845_j7928509628847_4_alg».proof.Proof.Gen.Kernel
import proofs.«414845_j7928509628847_4_alg».proof.Proof.Gen.Kernel.Skeleton
import proofs.«414845_j7928509628847_4_alg».proof.Proof.Gen.Kernel.Launch
import proofs.«414845_j7928509628847_4_alg».proof.Proof.Gen.Kernel.Points
import proofs.«414845_j7928509628847_4_alg».proof.Proof.Gen.Kernel.Frame
import proofs.«414845_j7928509628847_4_alg».proof.Proof.Gen.KernelIdeal
import proofs.«414845_j7928509628847_4_alg».proof.Proof.Gen.KernelIdeal.Skeleton
import proofs.«414845_j7928509628847_4_alg».proof.Proof.Gen.KernelIdeal.Launch
import proofs.«414845_j7928509628847_4_alg».proof.Proof.Gen.KernelIdeal.Points
import proofs.«414845_j7928509628847_4_alg».proof.Proof.Gen.KernelIdeal.Frame
import proofs.«414845_j7928509628847_4_alg».proof.Proof.Gen.ReferenceIdeal
import proofs.«414845_j7928509628847_4_alg».proof.Proof.Gen.ReferenceIdeal.Run
import proofs.«414845_j7928509628847_4_alg».proof.Proof.Gen.ReferenceIdeal.Read
import proofs.«414845_j7928509628847_4_alg».proof.Proof.Gen.Pre_finite_inputs
import proofs.«414845_j7928509628847_4_alg».proof.Proof.PreRead
import proofs.«414845_j7928509628847_4_alg».proof.Proof.OkBits
import proofs.«414845_j7928509628847_4_alg».proof.Proof.OkIdeal
import proofs.«414845_j7928509628847_4_alg».proof.Proof.KernelTotal
import proofs.«414845_j7928509628847_4_alg».proof.Proof.RefRead
import proofs.«414845_j7928509628847_4_alg».proof.Proof.Bridge
import Idealize.ShloMosaic.Adequacy
import Idealize.ShloMosaic.Init

noncomputable section

namespace Cert.Proof

open Idealize.ShloMosaic Idealize.ShloMosaic.TcCoe Idealize.SL.Sem
open Idealize.ShloMosaic.ValueIdx
open Cert.HalfSqDist (kterm meanHalfSq kterm_coe mean_coe total_eq_mean)

/-- The word-level kernel runs and keeps its arguments: every label-indexed block is inside the table. -/
theorem frame_k : Cert.frame_Kernel := fun m ρ h =>
  Cert.Kernel.Gen.frame m ρ (Cert.Kernel.OkOfPre.ok_of_labels m fun j => Cert.PreRead.label_lt _ _ _ (h 0) j)

/-- The same of the idealized kernel. -/
theorem frame_ki : Cert.frame_KernelIdeal := fun m ρ h =>
  Cert.KernelIdeal.Gen.frame m ρ (Cert.KernelIdeal.OkOfPre.ok_of_labels m fun j => Cert.PreRead.label_lt _ _ _ (h 0) j)

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- With exact arithmetic the kernel's ordered total and the reference's mean are the same number. -/
theorem algebraic : Cert.algebraic_KernelIdeal_ReferenceIdeal := by
  intro m ρ m' ρ' hpre hagree
  have hfn := hpre 0
  have hL : ∀ j, (m (((0 : Dev Cert.KernelIdeal.nD) : Thread Cert.KernelIdeal.nD Cert.KernelIdeal.τ).loc Cert.KernelIdeal.main_arg1) j).toNat < 32768 :=
    fun j => Cert.PreRead.label_lt _ _ _ hfn j
  have hO := Cert.KernelIdeal.OkOfPre.ok_of_labels m hL
  have hLt : ∀ t : Fin 1024, (Cert.KernelIdeal.Blocks.lab m t).toNat < 32768 := fun t => hL _
  choose xr hxr using Cert.PreRead.x_real _ _ _ hfn
  choose cr hcr using Cert.PreRead.c_real _ _ _ hfn
  refine ⟨fun _ _ => ((meanHalfSq (fun i d => xr (ix2 i d)
      - cr (ix2 (⟨(Cert.KernelIdeal.Blocks.lab m i).toNat, hLt i⟩ : Fin 32768) d)) : ℝ) : EReal), ?_, ?_⟩
  · refine (θ_run Cert.KernelIdeal.defs _ _).mono (fun _ h c => ⟨(h c).1.trans ?_, (h c).2⟩)
      (Cert.KernelIdeal.Total.run m ρ hO)
    obtain rfl : c = 0 := Subsingleton.elim _ _
    funext j
    rw [Cert.KernelIdeal.Total.result_apply m hO hLt 0 j]
    have hterm : Cert.KernelIdeal.Total.term m hLt 0 = fun i => ((kterm (fun d => xr (ix2 i d)
        - cr (ix2 (⟨(Cert.KernelIdeal.Blocks.lab m i).toNat, hLt i⟩ : Fin 32768) d)) : ℝ) : EReal) := funext fun i => by
      unfold Cert.KernelIdeal.Total.term
      simp only [Cert.KernelIdeal.Blocks.xs, Cert.KernelIdeal.Blocks.cs, hxr, hcr]
      exact kterm_coe (fun d => xr (ix2 i d)) (fun d => cr (ix2 (⟨(Cert.KernelIdeal.Blocks.lab m i).toNat, hLt i⟩ : Fin 32768) d))
    rw [hterm]
    exact total_eq_mean (fun i d => xr (ix2 i d)) (fun i d => cr (ix2 (⟨(Cert.KernelIdeal.Blocks.lab m i).toNat, hLt i⟩ : Fin 32768) d))
  · refine (θ_run Cert.ReferenceIdeal.defs _ _).mono (fun _ h c => ⟨(h c).1.trans ?_, (h c).2⟩)
      (Cert.ReferenceIdeal.Value.run (F := Ideal) m' ρ')
    obtain rfl : c = 0 := Subsingleton.elim _ _
    rw [(hagree 0).1, (hagree 0).2.1, (hagree 0).2.2, Cert.ReferenceIdeal.Read.val_main_v13_eq]
    funext j
    rw [Cert.ReferenceIdeal.RefValue.result_eq _ _ _ hL j]
    simp only [hxr, hcr]
    exact mean_coe (fun i d => xr (ix2 i d)) (fun i d => cr (ix2 (⟨(Cert.KernelIdeal.Blocks.lab m i).toNat, hLt i⟩ : Fin 32768) d))

/-- The claim: the three frames, the (empty) preservation, and the equivalence. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
